-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 32000#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S64x1x128 : Shape := ⟨3, ![64, 1, 128]⟩
abbrev S128x32000 : Shape := ⟨2, ![128, 32000]⟩
abbrev S128x1 : Shape := ⟨2, ![128, 1]⟩
abbrev S1x1x128 : Shape := ⟨3, ![1, 1, 128]⟩
abbrev S128 : Shape := ⟨1, ![128]⟩
abbrev S1x128 : Shape := ⟨2, ![1, 128]⟩

abbrev nBuf : Space → Nat
  | .hbm => 13
  | .vmem => 6
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S8192, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S64x1x128, .f32⟩
  | .hbm, ⟨12, _⟩ => ⟨S8192, .f32⟩
  | .local _ .vmem, ⟨0, _⟩ => ⟨S128x32000, .f32⟩
  | .local _ .vmem, ⟨1, _⟩ => ⟨S128x32000, .f32⟩
  | .local _ .vmem, ⟨2, _⟩ => ⟨S128x1, .i32⟩
  | .local _ .vmem, ⟨3, _⟩ => ⟨S128x1, .i32⟩
  | .local _ .vmem, ⟨4, _⟩ => ⟨S1x1x128, .f32⟩
  | .local _ .vmem, ⟨5, _⟩ => ⟨S1x1x128, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8192 : S_.BroadcastsInDim S8192 (![] : Fin 0 → Fin S8192.rank)
  shapeCasts_S8192_S8192x1 : S8192.ShapeCasts S8192x1
  inb_S128x32000_S128x32000_0_0 : ∀ a, (![0, 0] : Fin 2 → Nat) a + S128x32000.size a ≤ S128x32000.size a
  h_S128x32000 : 0 < S128x32000.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S128x32000_d1_w32 : S128x32000.Iotas .tc 32 [1]
  broadcasts_S128x1_S128x32000 : S128x1.Broadcasts S128x32000
  reduces_S128x32000_S128 : S128x32000.Reduces [1] S128
  shapeCasts_S128_S128x1 : S128.ShapeCasts S128x1
  transposes_S128x1_p1_0_S1x128 : S128x1.Transposes [1, 0] S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S64x1x128_S8192 : S64x1x128.ShapeCasts S8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32000.size a ≤ S8192x32000.size a
  hwx0_0 : ∀ i : grid0.Coords, EltTy.bits .f32 = 32 ∨ (Rect.block (s := S8192x32000) S128x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S64x1x128.size a
  hwx0_2 : ∀ i : grid0.Coords, EltTy.bits .f32 = 32 ∨ (Rect.block (s := S64x1x128) S1x1x128.size (cc0_transform_2 i) (hinb0_2 i)).WholeWords (EltTy.packing .f32)

variable [Facts₀]

abbrev win0_0 : Pipeline.Window sig grid0 :=
  Pipeline.Window.ofSpec (Memref.whole main_arg0) S128x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x32000, .f32⟩
  | .hbm, ⟨9, _⟩ => ⟨S8192x32000, .f32⟩
  | .hbm, ⟨10, _⟩ => ⟨S8192x32000, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S8192x32000, .f32⟩
  | .hbm, ⟨16, _⟩ => ⟨S8192x32000, .f32⟩
  | .hbm, ⟨17, _⟩ => ⟨S8192x1, .i32⟩
  | .hbm, ⟨18, _⟩ => ⟨S_, .i32⟩
  | .hbm, ⟨19, _⟩ => ⟨S8192x1, .i32⟩
  | .hbm, ⟨20, _⟩ => ⟨S8192x1, .i1⟩
  | .hbm, ⟨21, _⟩ => ⟨S_, .i32⟩
  | .hbm, ⟨22, _⟩ => ⟨S8192x1, .i32⟩
  | .hbm, ⟨23, _⟩ => ⟨S8192x1, .i32⟩
  | .hbm, ⟨24, _⟩ => ⟨S8192x1, .i32⟩
  | .hbm, ⟨25, _⟩ => ⟨S8192x1x1, .i32⟩
  | .hbm, ⟨26, _⟩ => ⟨S1, .i32⟩
  | .hbm, ⟨27, _⟩ => ⟨S_, .i32⟩
  | .hbm, ⟨28, _⟩ => ⟨S8192x1x1, .i32⟩
  | .hbm, ⟨29, _⟩ => ⟨S8192x1x1, .i1⟩
  | .hbm, ⟨30, _⟩ => ⟨S1x1x1, .i32⟩
  | .hbm, ⟨31, _⟩ => ⟨S8192x1x1, .i32⟩
  | .hbm, ⟨32, _⟩ => ⟨S8192x1x1, .i1⟩
  | .hbm, ⟨33, _⟩ => ⟨S8192x1x1, .i1⟩
  | .hbm, ⟨34, _⟩ => ⟨S_, .i1⟩
  | .hbm, ⟨35, _⟩ => ⟨S8192x1, .i1⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_v6 : Ref sig .tc := ⟨.hbm, 44, rfl⟩
abbrev main_cst_0 : Ref sig .tc := ⟨.hbm, 45, rfl⟩
abbrev main_v7 : Ref sig .tc := ⟨.hbm, 46, rfl⟩
abbrev main_v8 : Ref sig .tc := ⟨.hbm, 47, rfl⟩
abbrev main_cst_1 : Ref sig .tc := ⟨.hbm, 48, rfl⟩
abbrev main_v9 : Ref sig .tc := ⟨.hbm, 49, rfl⟩
abbrev main_v10 : Ref sig .tc := ⟨.hbm, 50, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  gather_S8192x32000_S8192x1x1_S8192x1_n_1_0_0_1_2_11_wf : GatherDims.WF S8192x32000 S8192x1x1 S8192x1 [] [1] [0] [1] [0] 2 ![1, 1]

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.PreDecode.lean ====
import proofs.«423913_j32959579029758_3_alg».proof.Proof.Gen.Pre_finite_inputs
import Idealize.ShloMosaic.Lib.ValueIdx
import Idealize.ShloMosaic.PureOps.Ideal
import Idealize.ShloMosaic.Lib.ReduceAll

/-!
# The precondition, read back

The precondition is one bit: the conjunction of two "for all" tests, each an `and`-reduction of a
table of bits down to a single bit. The first table holds, per logit, the comparison `|x| < +∞`; the
second holds, per row, the conjunction `0 ≤ t` and `t < 32000`, both read as signed 32-bit words.

If that one bit is 1 then both reductions are 1, so every bit of both tables is 1. Over the extended
reals `|x| = max x (-x)`, which is `⊤` at both infinities (and at the junk value `⊥`), so
`|x| < ⊤` leaves only the real numbers. A 32-bit word that is nonnegative when read signed reads the
same unsigned, so `0 ≤ t < 32000` signed gives `t.toNat < 32000`.
-/

namespace Cert.Proof.PreDecode

open Idealize.ShloMosaic

/-- The shape of rank 0 has exactly one index: there is no axis to give a coordinate for. -/
instance subsingleton_scalar_idx : Subsingleton Cert.Pre_finite_inputs.S_.Idx :=
  ⟨fun _ _ => funext fun d => d.elim0⟩

/-- The f32 word `0x7F800000` (sign 0, exponent all ones, fraction 0) denotes `+∞`. -/
theorem ofBits_posInf : Ideal.ofBits .f32 0x7F800000#32 = ⊤ := by
  simp [Ideal.ofBits, Ideal.ieee]

/-- An extended real whose absolute value `max a (-a)` is strictly below `⊤` is a real number:
    at `⊤` the maximum is `⊤` itself, and at `⊥` it is `-⊥ = ⊤`. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- One bit of the first table: the ordered comparison `|a| < +∞` came out 1, so `a` is real. -/
theorem real_of_abs_olt_inf (a : Ideal .f32)
    (h : FloatOps.cmpf .olt (FloatOps.hostAbsf a) (FloatOps.ofBits (F := Ideal) .f32 0x7F800000#32) = 1#1) :
    ∃ r : ℝ, a = (r : EReal) := by
  have h' : Ideal.cmp .olt (max (a : EReal) (-(a : EReal))) (Ideal.ofBits .f32 0x7F800000#32) = 1#1 := h
  rw [ofBits_posInf] at h'
  unfold Ideal.cmp at h'
  refine real_of_abs_lt_top a ?_
  by_contra hn
  simp [hn] at h'

/-- A 32-bit word that, read signed, is at least the word 0 and below the word 32000 has an unsigned
    value below 32000: being nonnegative it lies in the lower half of the words, where the signed and
    the unsigned readings agree. -/
theorem toNat_lt_of_signed_range (w : BitVec 32) (h0 : (0#32 : BitVec 32).toInt ≤ w.toInt)
    (h1 : w.toInt < (32000#32 : BitVec 32).toInt) : w.toNat < 32000 := by
  have e0 : (0#32 : BitVec 32).toInt = 0 := by decide
  have e1 : (32000#32 : BitVec 32).toInt = 32000 := by decide
  rw [e0] at h0
  rw [e1] at h1
  rw [BitVec.toInt_eq_toNat_cond] at h0 h1
  have hw := w.isLt
  split at h0 <;> omega

/-- The precondition decoded: if the test evaluates to 1, every logit is a real number and every
    target, read as a natural number, is a column of the table. -/
theorem of_pre (x : FVec Ideal Cert.Pre_finite_inputs.S8192x32000 .f32) (t : IVec Cert.Pre_finite_inputs.S8192 32)
    (h : Cert.Pre_finite_inputs.fn (F := Ideal) x t = fun _ => 1#1) :
    (∀ i, ∃ r : ℝ, x i = (r : EReal)) ∧ (∀ j, (t j).toNat < 32000) := by
  have h0 := congrFun h ValueIdx.ix0
  dsimp only [Cert.Pre_finite_inputs.fn] at h0
  -- the last `and`: both reductions are 1
  obtain ⟨hx, ht⟩ := IntOp.andi_eq_one.1 h0
  refine ⟨fun i => ?_, fun j => ?_⟩
  · -- every bit of the first table is 1; read the bit of logit `i`
    exact real_of_abs_olt_inf (x i) (Host.reduce_andi_all _ _ _ _ _ hx i)
  · -- every bit of the second table is 1; the bit of row `j` is itself an `and` of two comparisons
    obtain ⟨hge, hlt⟩ := IntOp.andi_eq_one.1 (Host.reduce_andi_all _ _ _ _ _ ht j)
    exact toNat_lt_of_signed_range (t j) (IntOp.cmpi_sge.1 hge) (IntOp.cmpi_slt.1 hlt)

end Cert.Proof.PreDecode
-- ==== Proof.RowLoss.lean ====
/-
  The loss of one row, in the two arrangements the programs compute it in, and their equality.

  For a row `x : Fin n → EReal` and a picked entry `xt` of it, write `M = max_k x k` (the fold of `max` from `⊥`)
  and `S = Σ_k exp (x k - M)`.  One program forms the log-probability as `xt - (log S + M)` and the loss as
  `(one - exp (q · lp)) / q`; the other forms it as `(xt - M) - log S` and the loss as `(one - (exp lp) ^ q) / q`.
  When every entry of the row is a finite real and `q` is a finite real, `M` is a real, `S` is a positive real,
  both log-probabilities are the same real `lp`, and `exp (q · lp) = (exp lp) ^ q` is `Real.exp_mul`.
  Finiteness is used: with an infinite entry `M`, `S` or `lp` leaves the reals and the two arrangements part.
-/
import Idealize.ShloMosaic.PureOps.Ideal
import Mathlib.Data.Finset.Fold
import Mathlib.Analysis.SpecialFunctions.Pow.Real

noncomputable section

namespace Cert.Proof.RowLoss

open Idealize.ShloMosaic

/-- The maximum of a row: the fold of `max` from `⊥` over its entries. -/
def rowMax {n : ℕ} (xr : Fin n → EReal) : EReal := (Finset.univ : Finset (Fin n)).fold max ⊥ xr

/-- The sum of the exponentials of a row's entries, each shifted by the row's maximum. -/
def rowSumExp {n : ℕ} (xr : Fin n → EReal) : EReal := ∑ k : Fin n, Ideal.exp (xr k - rowMax xr)

/-- The loss with the log-probability formed as `xt - (log S + M)` and raised to `q` inside the exponential. -/
def lossK (q one : EReal) {n : ℕ} (xr : Fin n → EReal) (xt : EReal) : EReal :=
  Ideal.div (one - Ideal.exp (q * (xt - (Ideal.log (rowSumExp xr) + rowMax xr)))) q

/-- The loss with the log-probability formed as `(xt - M) - log S`, exponentiated, then raised to the power `q`. -/
def lossR (q one : EReal) {n : ℕ} (xr : Fin n → EReal) (xt : EReal) : EReal :=
  Ideal.div (one - Ideal.pow (Ideal.exp ((xt - rowMax xr) - Ideal.log (rowSumExp xr))) q) q

/-- A finite sum of reals, summed in the extended reals, is the real sum. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The maximum of a nonempty row of reals is a real: it is below `⊤` because every entry is, and above `⊥`
    because the first entry is. -/
theorem rowMax_real {n : ℕ} (hn : 0 < n) (g : Fin n → ℝ) : ∃ M : ℝ, rowMax (fun k => (g k : EReal)) = M := by
  have h1 : rowMax (fun k => (g k : EReal)) < ⊤ := by
    unfold rowMax; rw [Finset.fold_max_lt]; exact ⟨bot_lt_top, fun k _ => EReal.coe_lt_top _⟩
  have h2 : ⊥ < rowMax (fun k => (g k : EReal)) := by
    unfold rowMax; rw [Finset.lt_fold_max]; exact Or.inr ⟨⟨0, hn⟩, Finset.mem_univ _, EReal.bot_lt_coe _⟩
  exact ⟨_, (EReal.coe_toReal h1.ne h2.ne').symm⟩

/-- On a nonempty row of finite reals, with a finite picked entry and a finite exponent, the two arrangements of
    the loss are equal. -/
theorem lossK_eq_lossR {n : ℕ} (hn : 0 < n) (q one : EReal) (hq : ∃ r : ℝ, q = r) (xr : Fin n → EReal)
    (hx : ∀ k, ∃ r : ℝ, xr k = r) (xt : EReal) (ht : ∃ r : ℝ, xt = r) :
    lossK q one xr xt = lossR q one xr xt := by
  choose g hg using hx
  obtain ⟨t, rfl⟩ := ht
  obtain ⟨q', rfl⟩ := hq
  obtain rfl : xr = fun k => (g k : EReal) := funext hg
  obtain ⟨M, hM⟩ := rowMax_real hn g
  have hS : rowSumExp (fun k => (g k : EReal)) = ((∑ k : Fin n, Real.exp (g k - M) : ℝ) : EReal) := by
    unfold rowSumExp; rw [hM, ← coe_sum]
    refine Finset.sum_congr rfl fun k _ => ?_
    rw [← EReal.coe_sub, Ideal.exp_coe]
  have hpos : 0 < ∑ k : Fin n, Real.exp (g k - M) :=
    Finset.sum_pos (fun k _ => Real.exp_pos _) ⟨⟨0, hn⟩, Finset.mem_univ _⟩
  unfold lossK lossR
  rw [hS, hM, Ideal.log_coe, if_neg (not_le.mpr hpos)]
  refine congrArg (fun e => Ideal.div (one - e) (q' : EReal)) ?_
  rw [← EReal.coe_add, ← EReal.coe_sub, ← EReal.coe_mul, Ideal.exp_coe, ← EReal.coe_sub, ← EReal.coe_sub,
    Ideal.exp_coe, Ideal.pow_coe_coe, Real.rpow_eq_pow, ← Real.exp_mul]
  congr 2
  ring

end Cert.Proof.RowLoss

end
-- ==== Proof.KernelPayload.lean ====
/-
  The kernel body's stored value, read at a lane.

  The body loads a block `x0` of 128 rows by 32000 columns and a column `x1` of 128 target words, and stores one
  value per row into a [1, 1, 128] vector.  At lane `j` that value depends on row `j` of the block only:
  the row's maximum (a fold of `max` from `-∞`, which denotes `⊥`), the sum over the row of `exp (x - max)`, and
  the entry picked by a one-hot sum, `Σ_k (if k = target then x_k else 0)`; these combine as `RowLoss.lossK`.
  The layout operations around them (a vector viewed as a column, a column broadcast along the rows, a transpose
  of a column to a row, a leading unit axis) only rename the index.
  The one-hot sum has exactly one nonzero term when the target word names a column, and is that column's entry.
-/
import proofs.«423913_j32959579029758_3_alg».proof.Proof.Gen.KernelIdeal.Skeleton
import proofs.«423913_j32959579029758_3_alg».proof.Proof.RowLoss
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.Proof.KernelPayload

open Cert.KernelIdeal Cert.KernelIdeal.Gen Idealize.ShloMosaic Idealize.ShloMosaic.ValueIdx

/-! ## Index renamings at the block's sizes -/

/-- A vector of 128 entries viewed as a [128, 1] column reads, at `(j, 0)`, entry `j`. -/
theorem column_apply {α : Type} (v : S128.Idx → α) (h : S128.ShapeCasts S128x1) (j : Fin 128) (u : Fin 1) :
    shapeCast S128x1 v h (ix2 j u) = v (ix1 j) :=
  shapeCast_apply v h _ _ (by
    have hu : u.val = 0 := by omega
    rw [Shape.rowMajor_val_one, Shape.rowMajor_val_two]
    show j.val = j.val * 1 + u.val
    omega)

/-- A [128, 1] column broadcast along 32000 columns reads, at `(j, k)`, the column's entry `j`. -/
theorem spread_apply {α : Type} (v : S128x1.Idx → α) (h : S128x1.Broadcasts S128x32000) (j : Fin 128) (k : Fin 32000) :
    broadcastTo S128x32000 v h (ix2 j k) = v (ix2 j (0 : Fin 1)) :=
  broadcastTo_apply v h _ _ (fun a => match a with
    | ⟨0, _⟩ => by show j.val = if (128 : Nat) = 1 then 0 else j.val; rw [if_neg (by decide)]
    | ⟨1, _⟩ => by show 0 = if (1 : Nat) = 1 then 0 else k.val; rw [if_pos rfl])

/-- The index a reduction over the column axis inserts coordinate `k` into, at row `j`, is `(j, k)`. -/
theorem lift_eq (h : S128x32000.Reduces [1] S128) (j : Fin 128) (k : Fin 32000) :
    h.lift (ix1 j) k = ix2 j k :=
  funext fun a => Fin.ext (by match a with | ⟨0, _⟩ => rfl | ⟨1, _⟩ => rfl)

/-- A sum over the column axis, at row `j`, is the sum of the row's entries. -/
theorem rowSum_apply (src : FVec Ideal S128x32000 .f32) (h : S128x32000.Reduces [1] S128)
    (hφ : FKind.Formats .f32) (hacc : (0x00000000#32 : BitVec 32) = 0x00000000#32) (j : Fin 128) :
    multiReduction .add [1] S128 src 0x00000000#32 h hφ hacc (ix1 j) = ∑ k : Fin 32000, src (ix2 j k) :=
  (Ideal.multiReduction_add_single src 0x00000000#32 h hφ hacc (ix1 j)).trans
    (Finset.sum_congr rfl fun k _ => congrArg src (lift_eq h j k))

/-- A maximum over the column axis, at row `j`, is the fold of `max` over the row's entries from the accumulator's value. -/
theorem rowMax_apply (src : FVec Ideal S128x32000 .f32) (h : S128x32000.Reduces [1] S128)
    (hφ : FKind.Formats .f32) (hacc : (0xFF800000#32 : BitVec 32) = 0xFF800000#32) (j : Fin 128) :
    multiReduction .maximumf [1] S128 src 0xFF800000#32 h hφ hacc (ix1 j)
      = (Finset.univ : Finset (Fin 32000)).fold max (Ideal.ofBits .f32 0xFF800000#32) (fun k => src (ix2 j k)) :=
  (Ideal.multiReduction_maximumf_single src 0xFF800000#32 h hφ hacc (ix1 j)).trans
    (Finset.fold_congr fun k _ => congrArg src (lift_eq h j k))

/-- The column counter at `(j, k)` is the word `k`. -/
theorem colIota_apply (h : S128x32000.Iotas .tc 32 [1]) (j : Fin 128) (k : Fin 32000) :
    iota .tc S128x32000 32 [1] h (ix2 j k) = BitVec.ofNat 32 k.val :=
  iota_single_apply .tc S128x32000 32 1 h (ix2 j k)

/-- The pattern of `-∞` denotes `⊥`. -/
theorem ofBits_neg_inf : Ideal.ofBits .f32 0xFF800000#32 = ⊥ := by
  simp [Ideal.ofBits, Ideal.ieee]

/-- A select on a word equality is the `if` on the equality. -/
theorem select_cmpi_eq {α : Type} {w : Nat} (a b : BitVec w) (u v : α) :
    Scalar.select (IntOp.cmpi .eq a b) u v = if a = b then u else v := by
  by_cases h : a = b
  · rw [if_pos h, StableHlo.Predicate.cmpi_eq_iff.mpr h, select_one]
  · rw [if_neg h, eq_zero_of_ne_one (fun e => h (StableHlo.Predicate.cmpi_eq_iff.mp e)), select_zero]

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem cmpi_apply {s : Shape} {w : Nat} (p : CmpIPredicate) (a b : IVec s w) (i : s.Idx) :
    cmpi p a b i = IntOp.cmpi p (a i) (b i) := rfl

/-! ## The one-hot sum -/

/-- When the word `t` names a column, the sum over the columns of "the entry if the column's word is `t`, else zero"
    is the entry at that column: every other term is zero. -/
theorem onehot_sum (f : Fin 32000 → EReal) (t : BitVec 32) (ht : t.toNat < 32000) :
    (∑ k : Fin 32000, if BitVec.ofNat 32 k.val = t then f k else 0) = f ⟨t.toNat, ht⟩ := by
  rw [Finset.sum_eq_single (⟨t.toNat, ht⟩ : Fin 32000)]
  · rw [if_pos]
    apply BitVec.eq_of_toNat_eq
    rw [BitVec.toNat_ofNat]
    exact Nat.mod_eq_of_lt t.isLt
  · intro k _ hk
    rw [if_neg]
    intro h
    apply hk
    apply Fin.ext
    have e := congrArg BitVec.toNat h
    rw [BitVec.toNat_ofNat, Nat.mod_eq_of_lt (by have := k.isLt; omega)] at e
    exact e
  · intro h; exact absurd (Finset.mem_univ _) h

/-! ## The body's three row-wise columns -/

section Columns

variable (x0 : Vec Ideal S128x32000 .f32) (x1 : Vec Ideal S128x1 .i32)

/-- The column of row maxima, as the body spells it. -/
def maxCol : FVec Ideal S128x1 .f32 :=
  shapeCast S128x1 (multiReduction .maximumf [1] S128 x0 0xFF800000#32 reduces_S128x32000_S128 (.inl rfl) rfl) shapeCasts_S128_S128x1

/-- The column of the rows' sums of `exp (x - max)`, as the body spells it. -/
def sumCol : FVec Ideal S128x1 .f32 :=
  shapeCast S128x1 (multiReduction .add [1] S128
    (exp (subf x0 (broadcastTo S128x32000 (maxCol x0) broadcasts_S128x1_S128x32000)))
    0x00000000#32 reduces_S128x32000_S128 (.inl rfl) rfl) shapeCasts_S128_S128x1

/-- The column of one-hot sums against the target words, as the body spells it. -/
def pickCol : FVec Ideal S128x1 .f32 :=
  shapeCast S128x1 (multiReduction .add [1] S128
    (select (cmpi .eq (iota .tc S128x32000 32 [1] iota_S128x32000_d1_w32)
        (broadcastTo S128x32000 (shapeCast S128x1 x1 shapeCasts_S128x1_S128x1) broadcasts_S128x1_S128x32000))
      x0 (broadcast S128x32000 (Scalar.ofBits .f32 0x00000000#32)))
    0x00000000#32 reduces_S128x32000_S128 (.inl rfl) rfl) shapeCasts_S128_S128x1

/-- The stored vector is the pointwise combination of the three columns, transposed to a row and given a leading unit axis. -/
theorem pay_eq : k0_pay1 (F := Ideal) x0 x1
    = shapeCast S1x1x128 (transpose S1x128 [1, 0]
        (divf (subf (broadcast S128x1 (Scalar.ofBits .f32 0x3F800000#32))
            (exp (mulf (broadcast S128x1 (Scalar.ofBits .f32 0x3F4CCCCD#32))
              (subf (pickCol x0 x1) (addf (log (sumCol x0)) (maxCol x0))))))
          (broadcast S128x1 (Scalar.ofBits .f32 0x3F4CCCCD#32)))
        transposes_S128x1_p1_0_S1x128) shapeCasts_S1x128_S1x1x128 := rfl

/-- The maximum column at row `j` is the maximum of row `j`. -/
theorem maxCol_apply (j : Fin 128) : maxCol x0 (ix2 j (0 : Fin 1)) = RowLoss.rowMax (fun k : Fin 32000 => x0 (ix2 j k)) :=
  (column_apply _ _ j 0).trans ((rowMax_apply x0 _ _ _ j).trans
    (congrArg (fun b => (Finset.univ : Finset (Fin 32000)).fold max b fun k => x0 (ix2 j k)) ofBits_neg_inf))

/-- The sum column at row `j` is the sum of the shifted exponentials of row `j`. -/
theorem sumCol_apply (j : Fin 128) : sumCol x0 (ix2 j (0 : Fin 1)) = RowLoss.rowSumExp (fun k : Fin 32000 => x0 (ix2 j k)) :=
  (column_apply _ _ j 0).trans ((rowSum_apply _ _ _ _ j).trans (Finset.sum_congr rfl fun k _ =>
    congrArg (fun e => Ideal.exp (x0 (ix2 j k) - e)) ((spread_apply (maxCol x0) _ j k).trans (maxCol_apply x0 j))))

/-- The pick column at row `j` is the one-hot sum of row `j` against the row's target word. -/
theorem pickCol_apply (j : Fin 128) :
    pickCol x0 x1 (ix2 j (0 : Fin 1))
      = ∑ k : Fin 32000, if BitVec.ofNat 32 k.val = x1 (ix2 j (0 : Fin 1)) then x0 (ix2 j k) else 0 :=
  (column_apply _ _ j 0).trans ((rowSum_apply _ _ _ _ j).trans (Finset.sum_congr rfl fun k _ => by
    show Scalar.select (IntOp.cmpi .eq (iota .tc S128x32000 32 [1] iota_S128x32000_d1_w32 (ix2 j k))
        (broadcastTo S128x32000 (shapeCast S128x1 x1 shapeCasts_S128x1_S128x1) broadcasts_S128x1_S128x32000 (ix2 j k)))
      (x0 (ix2 j k)) (Ideal.ofBits .f32 0x00000000#32) = _
    rw [colIota_apply, spread_apply, shapeCast_self, select_cmpi_eq, Ideal.ofBits_zero_f32]))

/-! ## The stored value at a lane -/

/-- The stored value at lane `j`: the loss of row `j` in the kernel's arrangement, its picked entry the one-hot sum
    against the row's target word. -/
theorem pay_apply (j : Fin 128) :
    k0_pay1 (F := Ideal) x0 x1 (ix3 (0 : Fin 1) (0 : Fin 1) j)
      = RowLoss.lossK (Ideal.ofBits .f32 0x3F4CCCCD#32) (Ideal.ofBits .f32 0x3F800000#32)
          (fun k : Fin 32000 => x0 (ix2 j k))
          (∑ k : Fin 32000, if BitVec.ofNat 32 k.val = x1 (ix2 j (0 : Fin 1)) then x0 (ix2 j k) else 0) := by
  rw [pay_eq]
  refine (shapeCast_ab_1ab_apply _ _ (0 : Fin 1) (0 : Fin 1) j).trans ?_
  refine (transpose_ix2_apply _ _ (0 : Fin 1) j).trans ?_
  simp only [divf_apply, subf_apply, mulf_apply, addf_apply, broadcast_apply, exp_apply, log_apply]
  rw [pickCol_apply, sumCol_apply, maxCol_apply]
  rfl

end Columns

end Cert.Proof.KernelPayload

end
-- ==== Proof.KernelValue.lean ====
/-
  The kernel's result, entry by entry.

  The region runs over 64 grid points.  Point `t` loads rows `128 t … 128 t + 127` of the logits and of the column of
  (clipped) target words, and writes the 128 losses of those rows as block `t` of a [64, 1, 128] array; so that array's
  entry `(b, 0, l)` is the loss of row `128 b + l` (`lossArr`).  The blocks tile the array, so after the run the array
  IS `lossArr` of the arrays the region found.  Before the region the target words are clipped to [0, 31999] and viewed
  as a column: a word that already names a column is unchanged by the clip.  After the region the [64, 1, 128] array is
  viewed as a vector of 8192 entries: entry `r` is entry `(r / 128, 0, r % 128)`, whose row is `r`.
  With the target word of row `r` naming a column, the one-hot sum of that row is the logit at that column.
-/
import proofs.«423913_j32959579029758_3_alg».proof.Proof.Gen.KernelIdeal.Frame
import proofs.«423913_j32959579029758_3_alg».proof.Proof.KernelPayload
import Idealize.ShloMosaic.Lib.Pipeline.Value
import Idealize.ShloMosaic.Lib.StableHlo.Run
import Idealize.ShloMosaic.Lib.StableHlo.Predicate
import Idealize.ShloMosaic.Lib.ValueIdx

noncomputable section

namespace Cert.Proof.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The array the region leaves -/

/-- The row whose loss entry `(b, 0, l)` of the [64, 1, 128] array holds: `128 b + l`. -/
def rowOf (i : S64x1x128.Idx) : Fin 8192 :=
  ⟨(i 0).val * 128 + (i 2).val, by
    have h0 : (i 0).val < 64 := (i 0).isLt
    have h2 : (i 2).val < 128 := (i 2).isLt
    omega⟩

/-- The [64, 1, 128] array of losses, as a function of the logits `X` and of the column `T` of target words: at each
    entry the loss of its row in the kernel's arrangement, the picked logit the one-hot sum against the row's word. -/
def lossArr (X : S8192x32000.Idx → EReal) (T : S8192x1.Idx → BitVec 32) : S64x1x128.Idx → EReal := fun i =>
  RowLoss.lossK (Ideal.ofBits .f32 0x3F4CCCCD#32) (Ideal.ofBits .f32 0x3F800000#32)
    (fun k : Fin 32000 => X (ix2 (rowOf i) k))
    (∑ k : Fin 32000, if BitVec.ofNat 32 k.val = T (ix2 (rowOf i) (0 : Fin 1)) then X (ix2 (rowOf i) k) else 0)

/-! ## The index maps, decided over the 64 points -/

/-- Every window's block index at point `t` is `t` on the row axis and `0` elsewhere. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem tlt (t : Fin cfg0.N) : t.val < 64 := lt_of_lt_of_eq t.isLt N_0

/-! ## The input blocks are rows of the arrays -/

/-- Entry `(j, k)` of the logits' block at point `t` is the logit of row `128 t + j`, column `k`. -/
theorem blk0_read (c : Dev nD) (t : Fin cfg0.N) (j : Fin 128) (k : Fin 32000) :
    iblk m c 0 t (ix2 j k) = V m c main_arg0 (ix2 ⟨t.val * 128 + j.val, by have := tlt t; omega⟩ k) := by
  obtain ⟨e00, e01, -⟩ := idx_facts t
  show V m c main_arg0 (((cfg0.win 0).blk t).view.emb (ix2 j k)) = _
  refine congrArg (V m c main_arg0) (funext fun a => Fin.ext ?_)
  match a with
  | ⟨0, _⟩ => show win0_0.index t (0 : Fin 2) * 128 + 1 * j.val = t.val * 128 + j.val; omega
  | ⟨1, _⟩ => show win0_0.index t (1 : Fin 2) * 32000 + 1 * k.val = k.val; omega

/-- Entry `(j, 0)` of the target column's block at point `t` is the word of row `128 t + j`. -/
theorem blk1_read (c : Dev nD) (t : Fin cfg0.N) (j : Fin 128) :
    iblk m c 1 t (ix2 j (0 : Fin 1)) = V m c main_v1 (ix2 ⟨t.val * 128 + j.val, by have := tlt t; omega⟩ (0 : Fin 1)) := by
  obtain ⟨-, -, e10, e11, -⟩ := idx_facts t
  show V m c main_v1 (((cfg0.win 1).blk t).view.emb (ix2 j (0 : Fin 1))) = _
  refine congrArg (V m c main_v1) (funext fun a => Fin.ext ?_)
  match a with
  | ⟨0, _⟩ => show win0_1.index t (0 : Fin 2) * 128 + 1 * j.val = t.val * 128 + j.val; omega
  | ⟨1, _⟩ => show win0_1.index t (1 : Fin 2) * 1 + 1 * 0 = 0; omega

/-! ## What a point writes back -/

/-- A stored lane against an entry of `lossArr`: when the loaded blocks are the rows `128 tv + j` of `X` and `T`, lane
    `j` of the stored vector is `lossArr` at any entry whose row is `128 tv + j`. -/
theorem entry_eq (X : S8192x32000.Idx → EReal) (T : S8192x1.Idx → BitVec 32)
    (x0 : Vec Ideal S128x32000 .f32) (x1 : Vec Ideal S128x1 .i32) (tv : ℕ) (htv : tv < 64)
    (hx0 : ∀ (j : Fin 128) (k : Fin 32000), x0 (ix2 j k) = X (ix2 ⟨tv * 128 + j.val, by omega⟩ k))
    (hx1 : ∀ j : Fin 128, x1 (ix2 j (0 : Fin 1)) = T (ix2 ⟨tv * 128 + j.val, by omega⟩ (0 : Fin 1)))
    (j : Fin 128) (i : S64x1x128.Idx) (hi0 : (i 0).val = tv) (hi2 : (i 2).val = j.val) :
    k0_pay1 (F := Ideal) x0 x1 (ix3 (0 : Fin 1) (0 : Fin 1) j) = lossArr X T i := by
  rw [KernelPayload.pay_apply]
  have hr : rowOf i = ⟨tv * 128 + j.val, by omega⟩ :=
    Fin.ext (by show (i 0).val * 128 + (i 2).val = tv * 128 + j.val; rw [hi0, hi2])
  unfold lossArr
  rw [hr]
  simp only [hx0, hx1]

/-- What point `t` writes back is block `t` of `lossArr` of the arrays the region found. -/
theorem flushed_eq (c : Dev nD) (t : Fin cfg0.N) :
    (dats m 0 c).flushed 2 t
      = ((cfg0.win 2).blk t).view.read (Elt Ideal) (lossArr (V m c main_arg0) (V m c main_v1)) := by
  show (cfg0.win 2).cut (grid0.coords t) ((dats m 0 c).after 2 t) = _
  rw [after0_2]
  unfold out0_2
  rw [View.canon_unit_zero hz3]
  simp only [View.ld_unit_zero (S := S128x32000) hz2, View.ld_unit_zero (S := S128x1) hz2]
  obtain ⟨-, -, -, -, e20, e21, e22⟩ := idx_facts t
  refine funext fun (y : S1x1x128.Idx) => ?_
  obtain ⟨a, b, j, rfl⟩ : ∃ (a : Fin 1) (b : Fin 1) (j : Fin 128), y = ix3 a b j := ⟨y 0, y 1, y 2, eq_ix3 y⟩
  obtain rfl : a = 0 := Subsingleton.elim _ _
  obtain rfl : b = 0 := Subsingleton.elim _ _
  show k0_pay1 (F := Ideal) (iblk m c 0 t) (iblk m c 1 t) (ix3 (0 : Fin 1) (0 : Fin 1) j)
    = lossArr (V m c main_arg0) (V m c main_v1) (((cfg0.win 2).blk t).view.emb (ix3 (0 : Fin 1) (0 : Fin 1) j))
  exact entry_eq (V m c main_arg0) (V m c main_v1) (iblk m c 0 t) (iblk m c 1 t) t.val (tlt t)
    (blk0_read m c t) (blk1_read m c t) j (((cfg0.win 2).blk t).view.emb (ix3 (0 : Fin 1) (0 : Fin 1) j))
    (by show win0_2.index t (0 : Fin 3) * 1 + 1 * 0 = t.val; omega)
    (by show win0_2.index t (2 : Fin 3) * 128 + 1 * j.val = j.val; omega)

/-! ## The blocks tile the array -/

/-- An entry is in point `t`'s block iff each coordinate is in the block's range on its axis. -/
theorem mem_blk (t : Fin cfg0.N) (i : S64x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v2).slice (win0_2.rect t)).set ↔ _
  rw [View.set_slice_whole, Rect.mem_set_unit]
  exact Iff.rfl

/-- Entry `(b, 0, l)` is in the block of point `b`. -/
theorem cover (i : S64x1x128.Idx) :
    ∃ t : Fin cfg0.N, (cfg0.win 2).flush t = true ∧ i ∈ ((cfg0.win 2).blk t).view.set := by
  have h0 : (i 0).val < 64 := (i 0).isLt
  have h1 : (i 1).val < 1 := (i 1).isLt
  have h2 : (i 2).val < 128 := (i 2).isLt
  obtain ⟨t, ht⟩ : ∃ t : Fin cfg0.N, t.val = (i 0).val :=
    ⟨⟨(i 0).val, by rw [show cfg0.N = 64 from N_0]; exact h0⟩, rfl⟩
  refine ⟨t, flush0_2 t, ?_⟩
  rw [mem_blk]
  obtain ⟨-, -, -, -, e20, e21, e22⟩ := idx_facts t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- After the run the region's output array is `lossArr` of the arrays the region found. -/
theorem final (c : Dev nD) : (dats m 0 c).arrAt 2 cfg0.N = lossArr (V m c main_arg0) (V m c main_v1) :=
  (dats m 0 c).arrAt_eq_of_cover 2 (lossArr (V m c main_arg0) (V m c main_v1)) (fun t _ => flushed_eq m c t) cover

/-! ## The target column the region finds -/

/-- A word that names a column is unchanged by the clip to [0, 31999]. -/
theorem clip_eq (t : BitVec 32) (ht : t.toNat < 32000) : IntOp.minsi 31999#32 (IntOp.maxsi 0#32 t) = t := by
  have hti : t.toInt = t.toNat := StableHlo.Predicate.toInt_eq_toNat_of_lt (by omega)
  have h0 : (0#32 : BitVec 32).toInt = 0 := by decide
  have h1 : (31999#32 : BitVec 32).toInt = 31999 := by decide
  have hmax : IntOp.maxsi 0#32 t = t := by
    unfold IntOp.maxsi
    rw [if_neg]
    simp only [BitVec.slt, hti, h0, decide_eq_true_eq]
    omega
  rw [hmax]
  unfold IntOp.minsi
  rw [if_neg]
  simp only [BitVec.slt, hti, h1, decide_eq_true_eq]
  omega

/-- The column the region finds: the target words clipped and viewed as a column. -/
theorem V_v1 (c : Dev nD) : (V m c main_v1 : S8192x1.Idx → BitVec 32)
    = shapeCast S8192x1 (minsi (broadcastInDim S8192 ![] bcast_S_S8192 (constantI S_ 32 31999#32))
        (maxsi (broadcastInDim S8192 ![] bcast_S_S8192 (constantI S_ 32 0#32)) (m ((c : Thread nD τ).loc main_arg1))))
        shapeCasts_S8192_S8192x1 := by
  dsimp only [V, V0]
  simp only [hostOps0, hostOps0_1, hostOps0_2, List.flatten_cons, List.flatten_nil, List.append_nil, List.cons_append,
    List.nil_append]
  after_results
  rfl

/-- At a row whose word names a column, the column the region finds holds that word. -/
theorem V_v1_apply (c : Dev nD) (r : Fin 8192) (hT : (m ((c : Thread nD τ).loc main_arg1) (ix1 r)).toNat < 32000) :
    V m c main_v1 (ix2 r (0 : Fin 1)) = m ((c : Thread nD τ).loc main_arg1) (ix1 r) := by
  refine (congrFun (V_v1 m c) (ix2 r (0 : Fin 1))).trans ?_
  refine (shapeCast_apply _ _ _ (ix1 r) (by
    rw [Shape.rowMajor_val_one, Shape.rowMajor_val_two]
    show r.val = r.val * 1 + 0
    omega)).trans ?_
  show IntOp.minsi 31999#32 (IntOp.maxsi 0#32 (m ((c : Thread nD τ).loc main_arg1) (ix1 r))) = _
  exact clip_eq _ hT

/-! ## The result after the region -/

/-- The program's result on core `c`: what the one host operation after the region leaves in the result buffer. -/
def res (c : Dev nD) : S8192.Idx → EReal := Pipeline.afterTail₀ cfgs (dats m) 0 (V0 m) [hostOps1] c main_v3

/-- It is the region's output array viewed as a vector of 8192 entries. -/
theorem res_eq (c : Dev nD) :
    res m c = shapeCast S8192 ((dats m 0 c).arrAt 2 cfg0.N) shapeCasts_S64x1x128_S8192 := by
  unfold res Pipeline.afterTail₀
  show StableHlo.after hostOps1 _ (Proc.devRef .tc main_v3) = _
  after_results
  exact congrArg (fun A : S64x1x128.Idx → EReal => shapeCast S8192 A shapeCasts_S64x1x128_S8192)
    (Pipeline.withArrays_arr spec0 launch0.win.arr_inj c _ _ 2)

/-- Entry `r` of the result, when row `r`'s target word names a column: the loss of row `r` in the kernel's
    arrangement, the picked logit the one at that column. -/
theorem res_apply (c : Dev nD) (r : Fin 8192) (hT : (m ((c : Thread nD τ).loc main_arg1) (ix1 r)).toNat < 32000) :
    res m c (ix1 r)
      = RowLoss.lossK (Ideal.ofBits .f32 0x3F4CCCCD#32) (Ideal.ofBits .f32 0x3F800000#32)
          (fun k : Fin 32000 => m ((c : Thread nD τ).loc main_arg0) (ix2 r k))
          (m ((c : Thread nD τ).loc main_arg0) (ix2 r ⟨(m ((c : Thread nD τ).loc main_arg1) (ix1 r)).toNat, hT⟩)) := by
  have hd : r.val / 128 < 64 := by have := r.isLt; omega
  have hm : r.val % 128 < 128 := Nat.mod_lt _ (by decide)
  rw [res_eq, final]
  refine (shapeCast_apply _ _ (ix1 r) (ix3 (⟨r.val / 128, hd⟩ : Fin 64) (0 : Fin 1) (⟨r.val % 128, hm⟩ : Fin 128)) (by
    rw [Shape.rowMajor_val_three, Shape.rowMajor_val_one]
    show (r.val / 128 * 1 + 0) * 128 + r.val % 128 = r.val
    omega)).trans ?_
  have hr : rowOf (ix3 (⟨r.val / 128, hd⟩ : Fin 64) (0 : Fin 1) (⟨r.val % 128, hm⟩ : Fin 128)) = r :=
    Fin.ext (by show r.val / 128 * 128 + r.val % 128 = r.val; omega)
  unfold lossArr
  rw [hr, V_v1_apply m c r hT, KernelPayload.onehot_sum _ _ hT]
  simp only [V_main_arg0 m c]

/-! ## The run, read -/

/-- Every weakly fair execution of the kernel's program terminates with its result buffer at `res` and the arguments
    unchanged. -/
theorem run : θ_run defs (onTc (τ := τ) (main (F := Ideal))) ⟨m, fun _ => 0, ρ⟩ fun r => ∀ c : Dev nD,
      r.2.mem ((c.tc : Thread nD τ).loc main_v3) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).2 main_v3 (Pipeline.mem_restRefs_of main_v3 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Proof.KernelValue

end
-- ==== Proof.RefStages.lean ====
/-
  The reference's run, read at its result.

  The run leaves every buffer at the fold of the program's operations over the launch contents.  Unfolding that fold
  at the result buffer gives the operations composed; an operation of a called function moves its operands and its
  result along the (trivial) equation between a buffer's own type and the tensor type it carries, so the composed
  term holds one such transport and its inverse around every intermediate value.  The two cancel (`ofBuf_toBuf`),
  and what is left is the chain of stages `val_main_v10` of the two argument arrays.  The argument buffers are
  written by no operation and end as launched.
-/
import proofs.«423913_j32959579029758_3_alg».proof.Proof.RefReadPatched

noncomputable section

namespace Cert.Proof.RefStages

open Cert.ReferenceIdeal Cert.ReferenceIdeal.Gen Idealize.ShloMosaic Idealize.ShloMosaic.TcCoe Idealize.SL.Sem Idealize.ShloMosaic.StableHlo

variable {F : FTy → Type} [FloatOps F]

/-- Contents moved to a typed reference's buffer type and back are the contents. -/
theorem ofBuf_toBuf {sig : RefSig} {Val : EltTy → Type} {T : BufTy} (x : TRef sig T) (v : T.Contents Val) :
    x.ofBuf (x.toBuf v) = v := by
  obtain ⟨r, rfl, _, _⟩ := x; rfl

set_option maxHeartbeats 2000000 in
/-- The result buffer after the 49 operations is the last stage of the two argument arrays. -/
theorem stage_v10 (m : (ℓ : Loc nD τ sig) → Buf (Elt F) ℓ) (c : Dev nD) :
    after (ValueP.ops (F := F)) (fun b => m (c, b)) (Proc.devRef .tc main_v10)
      = ReadP.val_main_v10 (F := F) (m ((c.tc : Thread nD τ).loc main_arg0)) (m ((c.tc : Thread nD τ).loc main_arg1)) := by
  after_results_simp
  simp only [ofBuf_toBuf]
  rfl

set_option maxHeartbeats 2000000 in
/-- No operation writes the first argument. -/
theorem kept_arg0 (m : (ℓ : Loc nD τ sig) → Buf (Elt F) ℓ) (c : Dev nD) :
    after (ValueP.ops (F := F)) (fun b => m (c, b)) (Proc.devRef .tc main_arg0) = m ((c.tc : Thread nD τ).loc main_arg0) := by
  after_results_simp <;> rfl

set_option maxHeartbeats 2000000 in
/-- No operation writes the second argument. -/
theorem kept_arg1 (m : (ℓ : Loc nD τ sig) → Buf (Elt F) ℓ) (c : Dev nD) :
    after (ValueP.ops (F := F)) (fun b => m (c, b)) (Proc.devRef .tc main_arg1) = m ((c.tc : Thread nD τ).loc main_arg1) := by
  after_results_simp <;> rfl

/-- Every weakly fair execution of the reference terminates with its result at the last stage of the argument
    arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
          = ReadP.val_main_v10 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v10).trans (stage_v10 m c), (h c main_arg0).trans (kept_arg0 m c),
      (h c main_arg1).trans (kept_arg1 m c)⟩) (ValueP.run m ρ)

end Cert.Proof.RefStages

end
-- ==== Proof.LibTakeAlong.lean ====
/-
  `stablehlo.gather` as `jnp.take_along_axis(x, idx, axis=1)` lowers it, read at an entry.

  For a matrix `x : [N, C]` and one column index per row, `idx : [N, 1]`, the lowering reshapes the indices to
  `[N, 1, 1]` and gathers with offset_dims `[]`, collapsed_slice_dims `[1]`, operand_batching_dims `[0]`,
  start_indices_batching_dims `[0]`, start_index_map `[1]`, index_vector_dim 2 and slice_sizes `[1, 1]`; the result
  is `[N, 1]`.  Axis 0 of the operand is a batching axis: result entry `(r, 0)` reads row `r` of the operand, the
  row of its own start index.  Axis 1 is the one the start index names: the column is the start index `idx[r, 0, 0]`,
  read as a signed integer and clamped into `[0, C - 1]`, as StableHLO clamps every start index so that the slice
  (here one element) fits.  Both slice sizes are 1, so no offset is added on either axis.

  `takeAlongDims N C wf` is that record of dimension numbers for any `N` and `C`; `gather_takeAlong_apply` reads
  `Host.gather` of it at a result index, and `gather_takeAlong_ix2` is the same at an index given by coordinates.
-/
import Idealize.ShloMosaic.Lib.ValueIdx

noncomputable section

namespace Cert.Proof.LibTakeAlong

open Idealize.ShloMosaic Idealize.ShloMosaic.ValueIdx

variable {α : Type}

/-- The dimension numbers of the batched gather for an operand `[N, C]`, start indices `[N, 1, 1]` and result
    `[N, 1]`. The well-formedness conditions are taken as a hypothesis `wf`, so the record exists for every `N` and `C`
    for which they hold. -/
abbrev takeAlongDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The start-indices index `[r, 0, 0]` at which result index `(r, 0)` reads its column. -/
abbrev takeAlongIdx {N : Nat} (y : (⟨2, ![N, 1]⟩ : Shape).Idx) : (⟨3, ![N, 1, 1]⟩ : Shape).Idx :=
  fun a => match a with | ⟨0, _⟩ => ⟨(y 0).val, idx2_lt0 y⟩ | ⟨1, _⟩ => ⟨0, Nat.one_pos⟩ | ⟨2, _⟩ => ⟨0, Nat.one_pos⟩

/-- On the batching axis the operand coordinate is the result's row. -/
theorem takeAlong_coord0 {N C w : Nat}
    (wf : GatherDims.WF ⟨2, ![N, C]⟩ ⟨3, ![N, 1, 1]⟩ ⟨2, ![N, 1]⟩ [] [1] [0] [1] [0] 2 ![1, 1])
    (idx : IVec ⟨3, ![N, 1, 1]⟩ w) (y : (⟨2, ![N, 1]⟩ : Shape).Idx) :
    (takeAlongDims N C wf).start y idx 0 + (takeAlongDims N C wf).batchCoord y 0 + (takeAlongDims N C wf).offCoord y 0
      = (y 0).val := by
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 2) ∈ (takeAlongDims N C wf).operandBatchingDims from List.mem_singleton.mpr rfl)]
  rfl

/-- On the indexed axis the operand coordinate is the clamped start index. -/
theorem takeAlong_coord1 {N C w : Nat}
    (wf : GatherDims.WF ⟨2, ![N, C]⟩ ⟨3, ![N, 1, 1]⟩ ⟨2, ![N, 1]⟩ [] [1] [0] [1] [0] 2 ![1, 1])
    (idx : IVec ⟨3, ![N, 1, 1]⟩ w) (y : (⟨2, ![N, 1]⟩ : Shape).Idx) :
    (takeAlongDims N C wf).start y idx 1 + (takeAlongDims N C wf).batchCoord y 1 + (takeAlongDims N C wf).offCoord y 1
      = min (idx (takeAlongIdx y)).toInt.toNat (C - 1) := by
  rw [GatherDims.batchCoord_eq_zero _ _ _ (show (1 : Fin 2) ∉ ([0] : List (Fin 2)) by decide),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (takeAlongDims N C wf).startIndexMap from List.mem_singleton.mpr rfl)]
  have hsi : (takeAlongDims N C wf).siIdx y ⟨List.idxOf (1 : Fin 2) (takeAlongDims N C wf).startIndexMap,
      List.idxOf_lt_length_iff.2 (List.mem_singleton.mpr rfl)⟩ = takeAlongIdx y := by
    funext b; refine Fin.ext ?_
    match b with
    | ⟨0, _⟩ => rfl
    | ⟨1, hb⟩ =>
      have h1 : (y 1).val < 1 := idx2_lt1 y
      show (y 1).val = 0
      omega
    | ⟨2, _⟩ => rfl
  rw [hsi]
  rfl

/-- The batched gather at result index `y` is the operand at row `y 0` and at the column given by the start index
    `idx[y 0, 0, 0]`, taken as a signed integer and clamped into `[0, C − 1]`. -/
theorem gather_takeAlong_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (y : (⟨2, ![N, 1]⟩ : Shape).Idx) :
    Host.gather (takeAlongDims N C wf) x idx y
      = x (ix2 (⟨(y 0).val, idx2_lt0 y⟩ : Fin N)
            (⟨min (idx (takeAlongIdx y)).toInt.toNat (C - 1), by omega⟩ : Fin C)) := by
  unfold Host.gather
  congr 1
  funext a
  refine Fin.ext ?_
  match a with
  | ⟨0, _⟩ => exact takeAlong_coord0 wf idx y
  | ⟨1, _⟩ => exact takeAlong_coord1 wf idx y

/-- The same at a result index given by its coordinates: row `r`, and the one column. -/
theorem gather_takeAlong_ix2 {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (r : Fin N) (c : Fin 1) :
    Host.gather (takeAlongDims N C wf) x idx (ix2 r c)
      = x (ix2 r (⟨min (idx (ix3 r (0 : Fin 1) (0 : Fin 1))).toInt.toNat (C - 1), by omega⟩ : Fin C)) := by
  rw [gather_takeAlong_apply hC wf x idx (ix2 r c)]
  have h : takeAlongIdx (ix2 r c) = ix3 r (0 : Fin 1) (0 : Fin 1) := by
    funext b; match b with | ⟨0, _⟩ => rfl | ⟨1, _⟩ => rfl | ⟨2, _⟩ => rfl
  refine congrArg x (funext fun a => Fin.ext ?_)
  match a with
  | ⟨0, _⟩ => rfl
  | ⟨1, _⟩ =>
    show min (idx (takeAlongIdx (ix2 r c))).toInt.toNat (C - 1) = min (idx (ix3 r (0 : Fin 1) (0 : Fin 1))).toInt.toNat (C - 1)
    rw [h]

end Cert.Proof.LibTakeAlong

end
-- ==== Proof.RefValue.lean ====
/-
  The reference's result, read at a row.

  The reference computes, for each row `i`, the log-softmax of the row, picks its entry at the row's target column,
  exponentiates it, raises it to the power `q` and forms `(one - ·) / q`.  Read one operation at a time at the entry
  `i`, with the row written `xr k = x0 (i, k)`:

  * the row maximum is a reduce with body `max` from `-∞` over the columns, the fold `rowMax xr`; the following
    maximum with a broadcast `-∞` changes nothing, `max ⊥ a = a`;
  * the shifted entries are `xr k - rowMax xr`, their exponentials are summed from the zero word, `rowSumExp xr`,
    and the log-softmax entry at `(i, k)` is `(xr k - rowMax xr) - log (rowSumExp xr)`;
  * the target `t` of the row is a word with `t.toNat < 32000`: it is not negative, so the wrap of negative targets
    keeps it; it passes both range tests, so the and-reduce over the one-element axis is the bit `1` and the final
    select keeps the gathered value rather than the fill; and its clamp into `[0, 31999]` is itself, so the batched
    gather reads the log-softmax entry at `(i, t)`;
  * the tail is `(one - (exp lp) ^ q) / q`, which is `RowLoss.lossR`.

  Nothing here uses that the entries are finite: the operations are only read.
-/
import proofs.«423913_j32959579029758_3_alg».proof.Proof.RefReadPatched
import proofs.«423913_j32959579029758_3_alg».proof.Proof.RowLoss
import proofs.«423913_j32959579029758_3_alg».proof.Proof.LibTakeAlong
import Idealize.ShloMosaic.Lib.ValueIdx
import Idealize.ShloMosaic.Lib.StableHlo.Predicate

noncomputable section

namespace Cert.Proof.RefValue

open Idealize.ShloMosaic Idealize.ShloMosaic.ValueIdx Cert.ReferenceIdeal Cert.ReferenceIdeal.Gen
open Cert.ReferenceIdeal.ReadP Cert.Proof.RowLoss Cert.Proof.LibTakeAlong
open Idealize.ShloMosaic.StableHlo.Predicate

/-! ## The index maps of the layout operations, at explicit coordinates -/

theorem idx_c0v3 (i : Fin 8192) : idx_main_call0_v3 (ix2 i (0 : Fin 1)) = ix1 i := by
  funext a; match a with | ⟨0, _⟩ => rfl
theorem idx_c0v4 (i : Fin 8192) (k : Fin 32000) : idx_main_call0_v4 (ix2 i k) = ix2 i (0 : Fin 1) := by
  funext a; match a with | ⟨0, _⟩ => rfl | ⟨1, _⟩ => rfl
theorem idx_c0v7 (i : Fin 8192) (k : Fin 32000) : idx_main_call0_v7 (ix1 i) k = ix2 i k := by
  funext a; match a with | ⟨0, _⟩ => rfl | ⟨1, _⟩ => rfl
theorem idx_c0v8 (i : Fin 8192) : idx_main_call0_v8 (ix2 i (0 : Fin 1)) = ix1 i := by
  funext a; match a with | ⟨0, _⟩ => rfl
theorem idx_c0v10 (i : Fin 8192) (k : Fin 32000) : idx_main_call0_v10 (ix2 i k) = ix2 i (0 : Fin 1) := by
  funext a; match a with | ⟨0, _⟩ => rfl | ⟨1, _⟩ => rfl
theorem idx_v1 (i : Fin 8192) : idx_main_v1 (ix2 i (0 : Fin 1)) = ix1 i := by
  funext a; match a with | ⟨0, _⟩ => rfl
theorem idx_c1v5 (i : Fin 8192) :
    idx_main_call1_v5 (ix3 i (0 : Fin 1) (0 : Fin 1)) = ix2 i (0 : Fin 1) := by
  funext a; refine Fin.ext ?_
  match a with
  | ⟨0, _⟩ => show ((i.val * 1 + 0) * 1 + 0) / 1 = i.val; omega
  | ⟨1, _⟩ => rfl
theorem idx_v3 (i : Fin 8192) : idx_main_v3 (ix1 i) = ix2 i (0 : Fin 1) := by
  funext a; refine Fin.ext ?_
  match a with
  | ⟨0, _⟩ => show i.val / 1 = i.val; omega
  | ⟨1, _⟩ => rfl

/-! ## The row maximum -/

/-- The reduced index `i` with column `k` put back is `(i, k)`. -/
theorem lift_row (h : S8192x32000.Reduces [1] S8192) (i : Fin 8192) (k : Fin (S8192x32000.size 1)) :
    h.lift (ix1 i) k = ix2 i (⟨k.val, k.isLt⟩ : Fin 32000) := by
  funext c; apply Fin.ext
  fin_cases c <;> rfl

/-- The word of `-∞` is the bottom of the extended reals. -/
theorem ofBits_neg_inf : Ideal.ofBits .f32 0xFF800000#32 = (⊥ : EReal) := by
  simp [Ideal.ofBits, Ideal.ieee]

/-- The reduce with body `max` from `-∞` over the columns, at row `i`, is the row's maximum. -/
theorem rowMax_read (x0 : (⟨S8192x32000, .f32⟩ : BufTy).Contents (Elt Ideal)) (i : Fin 8192) :
    val_main_call0_v0 (F := Ideal) x0 (ix1 i) = rowMax (fun k : Fin 32000 => x0 (ix2 i k)) := by
  unfold val_main_call0_v0
  have hR : S8192x32000.Reduces [1] S8192 := by decide
  refine (Host.reduce_eq_fold_single (FloatOps.maximumf (F := Ideal) (φ := .f32)) x0 (val_main_call0_cst (F := Ideal))
    reducesTo_S8192x32000_S8192_d1 hR h_S_ (ix1 i)).trans ?_
  have hf : (x0 ∘ hR.lift (ix1 i)) = fun k : Fin 32000 => x0 (ix2 i k) :=
    funext fun k => congrArg x0 (lift_row hR i k)
  have hb : val_main_call0_cst (F := Ideal) (Shape.Idx.first h_S_) = (⊥ : EReal) := ofBits_neg_inf
  unfold rowMax
  rw [hb]
  exact congrArg (fun f => Finset.fold max (⊥ : EReal) f (Finset.univ : Finset (Fin 32000))) hf

/-- The maximum with the broadcast `-∞` keeps the row maximum. -/
theorem c0v2_read (x0 : (⟨S8192x32000, .f32⟩ : BufTy).Contents (Elt Ideal)) (i : Fin 8192) :
    val_main_call0_v2 (F := Ideal) x0 (ix1 i) = rowMax (fun k : Fin 32000 => x0 (ix2 i k)) := by
  rw [val_main_call0_v2_apply, val_main_call0_v1_apply, val_main_call0_cst_0_apply, rowMax_read]
  show max (Ideal.ofBits .f32 0xFF800000#32) _ = _
  rw [ofBits_neg_inf]
  exact max_eq_right bot_le

/-! ## The log-softmax entry -/

/-- The shifted entry at `(i, k)`. -/
theorem c0v5_read (x0 : (⟨S8192x32000, .f32⟩ : BufTy).Contents (Elt Ideal)) (i : Fin 8192) (k : Fin 32000) :
    val_main_call0_v5 (F := Ideal) x0 (ix2 i k) = x0 (ix2 i k) - rowMax (fun k : Fin 32000 => x0 (ix2 i k)) := by
  rw [val_main_call0_v5_apply, val_main_call0_v4_apply, idx_c0v4, val_main_call0_v3_apply, idx_c0v3, c0v2_read]
  rfl

/-- The sum of the exponentials of the shifted entries of row `i`. -/
theorem c0v7_read (x0 : (⟨S8192x32000, .f32⟩ : BufTy).Contents (Elt Ideal)) (i : Fin 8192) :
    val_main_call0_v7 (F := Ideal) x0 (ix1 i) = rowSumExp (fun k : Fin 32000 => x0 (ix2 i k)) := by
  rw [val_main_call0_v7_apply, val_main_call0_cst_1_apply]
  show Ideal.ofBits .f32 0x00000000#32 + _ = _
  rw [Ideal.ofBits_zero_f32, zero_add]
  unfold rowSumExp
  refine Finset.sum_congr rfl fun k _ => ?_
  rw [idx_c0v7, val_main_call0_v6_apply, c0v5_read]
  rfl

/-- The log-softmax of row `i` at column `k`. -/
theorem v0_read (x0 : (⟨S8192x32000, .f32⟩ : BufTy).Contents (Elt Ideal)) (i : Fin 8192) (k : Fin 32000) :
    val_main_v0 (F := Ideal) x0 (ix2 i k)
      = (x0 (ix2 i k) - rowMax (fun k : Fin 32000 => x0 (ix2 i k)))
          - Ideal.log (rowSumExp (fun k : Fin 32000 => x0 (ix2 i k))) := by
  rw [val_main_v0_apply, c0v5_read, val_main_call0_v10_apply, idx_c0v10, val_main_call0_v9_apply,
    val_main_call0_v8_apply, idx_c0v8, c0v7_read]
  simp only [Ideal.subf_def, Ideal.hostUnary_log_def]

/-! ## The target of a row: the normalised index, the range mask, the gather -/

/-- The broadcast target at `(i, 0)` is the row's target. -/
theorem v1_read (x1 : (⟨S8192, .i32⟩ : BufTy).Contents (Elt Ideal)) (i : Fin 8192) :
    val_main_v1 (F := Ideal) x1 (ix2 i (0 : Fin 1)) = x1 (ix1 i) := by
  rw [val_main_v1_apply, idx_v1]

/-- A target below 32000 is not negative, so the wrap of negative targets keeps it. -/
theorem c1v5_read (x1 : (⟨S8192, .i32⟩ : BufTy).Contents (Elt Ideal)) (i : Fin 8192)
    (hT : (x1 (ix1 i)).toNat < 32000) :
    val_main_call1_v5 (F := Ideal) x1 (ix3 i (0 : Fin 1) (0 : Fin 1)) = x1 (ix1 i) := by
  rw [val_main_call1_v5_apply, idx_c1v5, val_main_call1_v4_apply, val_main_call1_v1_apply, v1_read,
    val_main_call1_v0_apply, val_main_call1_c_apply]
  have hlt : IntOp.cmpi .slt (x1 (ix1 i)) 0#32 = 0#1 := by
    refine eq_zero_of_ne_one fun h => ?_
    have := (slt_iff_toNat (a := x1 (ix1 i)) (b := 0#32) (by omega) (by decide)).mp h
    simp at this
  rw [hlt, select_zero]

/-- The target passes both range tests, so the and-reduce over the one-element axis is the bit `1`. -/
theorem c1v12_read (x1 : (⟨S8192, .i32⟩ : BufTy).Contents (Elt Ideal)) (i : Fin 8192)
    (hT : (x1 (ix1 i)).toNat < 32000) :
    val_main_call1_v12 (F := Ideal) x1 (ix2 i (0 : Fin 1)) = 1#1 := by
  unfold val_main_call1_v12
  have hR : S8192x1x1.Reduces [2] S8192x1 := by decide
  refine (Host.reduce_eq_fold_single (IntOp.andi (w := 1)) (val_main_call1_v11 (F := Ideal) x1) (val_main_call1_c_3 (F := Ideal))
    reducesTo_S8192x1x1_S8192x1_d2 hR h_S_ (ix2 i (0 : Fin 1))).trans ?_
  have hl : ∀ k : Fin (S8192x1x1.size 2), hR.lift (ix2 i (0 : Fin 1)) k = ix3 i (0 : Fin 1) (0 : Fin 1) := by
    intro k
    have hk : k.val = 0 := by have := k.isLt; change k.val < 1 at this; omega
    funext c; apply Fin.ext
    fin_cases c
    · rfl
    · rfl
    · exact hk
  have hge : IntOp.cmpi .sge (x1 (ix1 i)) 0#32 = 1#1 :=
    (sge_iff_toNat (a := x1 (ix1 i)) (b := 0#32) (by omega) (by decide)).mpr (by simp)
  have hle : IntOp.cmpi .sle (x1 (ix1 i)) 31999#32 = 1#1 :=
    (sle_iff_toNat (a := x1 (ix1 i)) (b := 31999#32) (by omega) (by decide)).mpr (by
      show (x1 (ix1 i)).toNat ≤ (31999#32 : BitVec 32).toNat
      have : (31999#32 : BitVec 32).toNat = 31999 := by decide
      omega)
  have h11 : val_main_call1_v11 (F := Ideal) x1 (ix3 i (0 : Fin 1) (0 : Fin 1)) = 1#1 := by
    rw [val_main_call1_v11_apply, val_main_call1_v7_apply, val_main_call1_v10_apply, c1v5_read x1 i hT,
      val_main_call1_v6_apply, val_main_call1_c_2_apply, val_main_call1_v9_apply, val_main_call1_v8_apply,
      val_main_call1_c_1_apply, hge, hle]
    rfl
  have hf : (val_main_call1_v11 (F := Ideal) x1 ∘ hR.lift (ix2 i (0 : Fin 1))) = fun _ => 1#1 :=
    funext fun k => by show val_main_call1_v11 (F := Ideal) x1 (hR.lift (ix2 i (0 : Fin 1)) k) = 1#1; rw [hl k, h11]
  rw [hf]
  show (Finset.univ : Finset (Fin 1)).fold IntOp.andi (1#1) (fun _ => 1#1) = 1#1
  rfl

/-- The batched gather at `(i, 0)` reads the log-softmax entry at the row's target column. -/
theorem c1v13_read (x0 : (⟨S8192x32000, .f32⟩ : BufTy).Contents (Elt Ideal)) (x1 : (⟨S8192, .i32⟩ : BufTy).Contents (Elt Ideal))
    (i : Fin 8192) (hT : (x1 (ix1 i)).toNat < 32000) :
    val_main_call1_v13 (F := Ideal) x0 x1 (ix2 i (0 : Fin 1))
      = val_main_v0 (F := Ideal) x0 (ix2 i ⟨(x1 (ix1 i)).toNat, hT⟩) := by
  show Host.gather (takeAlongDims 8192 32000 gather_S8192x32000_S8192x1x1_S8192x1_n_1_0_0_1_2_11_wf)
      (val_main_v0 (F := Ideal) x0) (val_main_call1_v5 (F := Ideal) x1) (ix2 i (0 : Fin 1)) = _
  rw [gather_takeAlong_ix2 (by decide)]
  refine congrArg (val_main_v0 (F := Ideal) x0) (funext fun a => Fin.ext ?_)
  match a with
  | ⟨0, _⟩ => rfl
  | ⟨1, _⟩ =>
    show min (val_main_call1_v5 (F := Ideal) x1 (ix3 i (0 : Fin 1) (0 : Fin 1))).toInt.toNat (32000 - 1)
      = (x1 (ix1 i)).toNat
    rw [c1v5_read x1 i hT, toInt_eq_toNat_of_lt (by omega), Int.toNat_natCast]
    omega

/-! ## The result -/

/-- The reference's result at row `i` is the row's loss in the arrangement `RowLoss.lossR`, taken at the row's
    target column. -/
theorem ref_apply (x0 : (⟨S8192x32000, .f32⟩ : BufTy).Contents (Elt Ideal)) (x1 : (⟨S8192, .i32⟩ : BufTy).Contents (Elt Ideal))
    (i : Fin 8192) (hT : (x1 (ix1 i)).toNat < 32000) :
    Cert.ReferenceIdeal.ReadP.val_main_v10 (F := Ideal) x0 x1 (ix1 i)
      = Cert.Proof.RowLoss.lossR (Ideal.ofBits .f32 0x3F4CCCCD#32) (Ideal.ofBits .f32 0x3F800000#32)
          (fun k : Fin 32000 => x0 (ix2 i k)) (x0 (ix2 i ⟨(x1 (ix1 i)).toNat, hT⟩)) := by
  rw [val_main_v10_apply, val_main_v9_apply, val_main_cst_1_apply, val_main_v8_apply, val_main_v7_apply,
    val_main_cst_0_apply, val_main_v6_apply, val_main_v5_apply, val_main_cst_apply, val_main_v4_apply,
    val_main_v3_apply, idx_v3, val_main_v2_apply, c1v12_read x1 i hT, select_one, c1v13_read x0 x1 i hT, v0_read]
  rfl

end Cert.Proof.RefValue

end
-- ==== Proof.lean ====
/-
  The generalized cross-entropy loss of a batch of rows: the kernel against its reference, over the extended reals.

  Inputs: logits `X : f32[8192, 32000]` and target words `t : i32[8192]`.  Per row `r` both programs compute
  `(1 - p ^ q) / q` for `p` the softmax probability of column `t r` and `q` the f32 constant nearest 0.8 (one word,
  the same in both programs, never evaluated beyond being a finite real).
  The precondition: every logit is a finite real, and every target word is a column index, `0 ≤ t r < 32000`.
  Under it the kernel's clip of the word is the identity and its one-hot sum over the row is the logit at column
  `t r`; the reference's sign test, range test and batched gather read the same logit.  Writing `M` for the row's
  maximum and `S = Σ_k exp (X r k - M)`, the kernel forms `exp (q · (x - (log S + M)))` and the reference
  `(exp ((x - M) - log S)) ^ q`; on finite reals these agree (`Real.exp_mul`): `RowLoss.lossK_eq_lossR`.
  Finiteness is used there, and the range of the target words is what makes the two picked logits the same.
  The frames of the two kernel programs are the generated ones; the reference's frame is its run with the result
  dropped; the idealization rewrote nothing, so `preserves` is trivial.
-/
import proofs.«423913_j32959579029758_3_alg».proof.Defs
import proofs.«423913_j32959579029758_3_alg».proof.Proof.Gen.Kernel
import proofs.«423913_j32959579029758_3_alg».proof.Proof.Gen.Kernel.Skeleton
import proofs.«423913_j32959579029758_3_alg».proof.Proof.Gen.Kernel.Launch
import proofs.«423913_j32959579029758_3_alg».proof.Proof.Gen.Kernel.Points
import proofs.«423913_j32959579029758_3_alg».proof.Proof.Gen.Kernel.Frame
import proofs.«423913_j32959579029758_3_alg».proof.Proof.Gen.KernelIdeal
import proofs.«423913_j32959579029758_3_alg».proof.Proof.Gen.KernelIdeal.Skeleton
import proofs.«423913_j32959579029758_3_alg».proof.Proof.Gen.KernelIdeal.Launch
import proofs.«423913_j32959579029758_3_alg».proof.Proof.Gen.KernelIdeal.Points
import proofs.«423913_j32959579029758_3_alg».proof.Proof.Gen.KernelIdeal.Frame
import proofs.«423913_j32959579029758_3_alg».proof.Proof.Gen.ReferenceIdeal
import proofs.«423913_j32959579029758_3_alg».proof.Proof.Gen.Pre_finite_inputs
import proofs.«423913_j32959579029758_3_alg».proof.Proof.PreDecode
import proofs.«423913_j32959579029758_3_alg».proof.Proof.KernelValue
import proofs.«423913_j32959579029758_3_alg».proof.Proof.RefStages
import proofs.«423913_j32959579029758_3_alg».proof.Proof.RefValue
import Idealize.ShloMosaic.Adequacy
import Idealize.ShloMosaic.Init

noncomputable section

namespace Cert.Proof

open Idealize.ShloMosaic Idealize.SL.Sem Idealize.ShloMosaic.ValueIdx

/-- The word `0x3F4CCCCD` (the f32 nearest 0.8) denotes a finite real, `13421773 / 2 ^ 24`. -/
theorem exponent_real : ∃ r : ℝ, Ideal.ofBits .f32 0x3F4CCCCD#32 = (r : EReal) := by
  refine ⟨(13421773 : ℝ) / 16777216, ?_⟩
  simp [Ideal.ofBits, Ideal.ieee, -EReal.coe_mul]; norm_num

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, read, with the result dropped. -/
theorem frame_referenceIdeal : Cert.frame_ReferenceIdeal := fun m ρ _ =>
  (θ_run Cert.ReferenceIdeal.defs _ _).mono (fun _ h c => (h c).2) (RefStages.run (F := Ideal) m ρ)

/-- The idealization rewrote no operation. -/
theorem preserves : Cert.preserves_Kernel_KernelIdeal := trivial

/-- From memories agreeing on the arguments both programs end, and entry `r` of both results is the loss of row `r`:
    the kernel's in its arrangement, the reference's in its own, over the same row, the same picked logit and the same
    exponent, equal on finite reals. -/
theorem algebraic : Cert.algebraic_KernelIdeal_ReferenceIdeal := by
  intro m ρ m' ρ' hpre hagree
  refine ⟨KernelValue.res m, KernelValue.run m ρ, ?_⟩
  refine (θ_run Cert.ReferenceIdeal.defs _ _).mono (fun _ h c => ⟨(h c).1.trans ?_, (h c).2⟩)
    (RefStages.run (F := Ideal) m' ρ')
  rw [(hagree c).1, (hagree c).2]
  obtain ⟨hfin, hrange⟩ := PreDecode.of_pre _ _ (hpre c)
  funext i
  obtain ⟨r, rfl⟩ : ∃ r : Fin 8192, i = ix1 r := ⟨i 0, eq_ix1 i⟩
  rw [RefValue.ref_apply _ _ r (hrange (ix1 r)), KernelValue.res_apply m c r (hrange (ix1 r))]
  exact (RowLoss.lossK_eq_lossR (by decide) _ _ exponent_real _ (fun k => hfin _) _ (hfin _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
